-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64x64 .f32) (main_arg7 : FVec F S64 .f32) (main_arg8 : FVec F S64 .f32) (main_arg9 : FVec F S64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x64 .f32) (main_arg1 : FVec F S8192x8192 .f32) (main_arg2 : FVec F S8192x8192 .f32) (main_arg3 : FVec F S8192x8192 .f32) (main_arg4 : FVec F S64x64 .f32) (main_arg5 : FVec F S64x64 .f32) (main_arg6 : FVec F S64x64 .f32) (main_arg7 : FVec F S64 .f32) (main_arg8 : FVec F S64 .f32) (main_arg9 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S512x2048 : Shape := ⟨2, ![512, 2048]⟩
abbrev S2048x64 : Shape := ⟨2, ![2048, 64]⟩
abbrev S512x64 : Shape := ⟨2, ![512, 64]⟩
abbrev S1x64 : Shape := ⟨2, ![1, 64]⟩
abbrev S_ : Shape := ⟨0, ![]⟩

abbrev nBuf : Space → Nat
  | .hbm => 50
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S8192x64, .f32⟩
  | .hbm, ⟨36, _⟩ => ⟨S8192x64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S1x64, .f32⟩
  | .hbm, ⟨45, _⟩ => ⟨S8192x64, .f32⟩
  | .hbm, ⟨46, _⟩ => ⟨S8192x64, .f32⟩
  | .hbm, ⟨47, _⟩ => ⟨S1x64, .f32⟩
  | .hbm, ⟨48, _⟩ => ⟨S8192x64, .f32⟩
  | .hbm, ⟨49, _⟩ => ⟨S8192x64, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_cst : Ref sig .tc := ⟨.hbm, 17, rfl⟩
abbrev main_call1_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_26 : BitVec 32 := 0#32
  let v38 : BitVec 1 := Scalar.cmpi .ne v37 c0_i32_26
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  dot_S8192x64_S64x64_S8192x64_1_0_0_1_n_n_wf : DotDims.WF S8192x64 S64x64 S8192x64 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .f32 = 32 ∨ (Rect.block (s := S8192x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S8192x64.size a
  hwx0_6 : ∀ i : grid0.Coords, EltTy.bits .f32 = 32 ∨ (Rect.block (s := S8192x64) S512x64.size (cc0_transform_6 i) (hinb0_6 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S1x64, .f32⟩
  | .hbm, ⟨49, _⟩ => ⟨S8192x64, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.LibReadBack.lean ====
/-
  General lemma: a load of a whole buffer after a sequence of stores whose LATEST store wrote the whole buffer
  reads that store's payload, whatever the earlier stores were.
-/
import Idealize.ShloMosaic.Lib.Pipeline.Value
import Idealize.ShloMosaic.Lib.Pipeline.FrameBody

noncomputable section

namespace Cert.ReadBack

open Idealize.ShloMosaic

variable {Val : EltTy → Type} {S : Shape} {e : EltTy}

/-- The pieces are listed latest first. If the head piece is the whole shape (offset zero, full extents), a load
    through the same whole rectangle reads the head's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.ReadBack

end
-- ==== Proof.Pieces.lean ====
/-
  What one grid point leaves in the accumulator, as a value.

  At every grid point the kernel adds three block products to a 512×64 accumulator kept in scratch memory: the
  point's 512×2048 blocks of L0, L1, L2, each multiplied with the matching 2048×64 block of X·W0, X·W1, X·W2 (both
  operands rounded to bf16, the product taken into a zero accumulator). At a point in the first column of the grid
  the accumulator is first set to zero; at a point in the last column it is copied to the output block.

  Every store and every load of the body is of a whole buffer, so each case's contents are one nested term:
  `((s + M0) + M1) + M2`, where `s` is what the accumulator held on entry (the zero block in the first column).
-/
import proofs.«101584_j17918603559109_1_alg».proof.Proof.Gen.KernelIdeal.Frame
import proofs.«101584_j17918603559109_1_alg».proof.Proof.LibReadBack
import Idealize.ShloMosaic.Lib.Pipeline.Value
import Idealize.ShloMosaic.Lib.Tactic

noncomputable section

open Idealize.ShloMosaic Idealize.ShloMosaic.TcCoe Idealize.SL.Sem

namespace Cert.KernelIdeal.Conv

open Cert.KernelIdeal Cert.KernelIdeal.Gen

variable {F : FTy → Type} [FloatOps F]

theorem hz : (![0, 0] : Fin 2 → Nat) = fun _ => 0 := funext fun a => by fin_cases a <;> rfl

/-- One block product: a 512×2048 block times a 2048×64 block, both rounded to bf16, into a zero accumulator. -/
def mm (l : Vec F S512x2048 .f32) (r : Vec F S2048x64 .f32) : FVec F S512x64 .f32 :=
  matmul dot_S512x2048_S2048x64_S512x64_1_0_0_1_n_n none (truncf .bf16 l bitsLt_bf16_f32) (truncf .bf16 r bitsLt_bf16_f32)
    (constant S512x64 .f32 0x00000000#32)

/-- One grid point's update of the accumulator `s`: the three block products added one after the other. -/
def upd (s : Vec F S512x64 .f32) (x0 x1 x2 : Vec F S512x2048 .f32) (x3 x4 x5 : Vec F S2048x64 .f32) : Vec F S512x64 .f32 :=
  addf (addf (addf s (mm x0 x3)) (mm x1 x4)) (mm x2 x5)

/-- The zero block a first-column point stores before accumulating. -/
def zero : Vec F S512x64 .f32 := broadcast S512x64 (Scalar.ofBits .f32 0x00000000#32)

/-- A point that is in neither the first nor the last column: the accumulator, holding `xs0`, ends at its update. -/
theorem scratch_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x64 .f32) (harg8 : arg8.IsWhole) (arg9 : Memref sig .tc .vmem S512x64 .f32) (harg9 : arg9.IsWhole) (hc0 : ¬cond0_0 i) (hc1 : ¬cond0_1 i) (x0 x1 x2 : Vec F S512x2048 .f32) (x3 x4 x5 : Vec F S2048x64 .f32) (xs0 : Vec F S512x64 .f32) :
    sout0_B_0 c i arg2 harg2 arg3 harg3 arg4 harg4 arg5 harg5 arg6 harg6 arg7 harg7 arg8 harg8 arg9 harg9 hc0 hc1 x0 x1 x2 x3 x4 x5 xs0 = upd xs0 x0 x1 x2 x3 x4 x5 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_cons_unit_zero (S := S512x64) hz]
  simp only [Cert.ReadBack.readCov_cons_unit_zero (S := S512x64) _ hz, View.readCov_unit_zero (S := S512x64) _ hz,
    View.readAt_eq_ld, harg2.read_unread, harg3.read_unread, harg4.read_unread, harg5.read_unread, harg6.read_unread,
    harg7.read_unread, harg9.read_unread, View.ld_unit_zero (S := S512x2048) hz, View.ld_unit_zero (S := S2048x64) hz,
    View.ld_unit_zero (S := S512x64) hz]
  unfold k0_pay1 k0_pay3 k0_pay4 k0_pay5 k0_pay6 upd mm
  simp only [shapeCast_self]

/-- A first-column point: the accumulator is set to the zero block and then updated, whatever it held before. -/
theorem scratch_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x64 .f32) (harg8 : arg8.IsWhole) (arg9 : Memref sig .tc .vmem S512x64 .f32) (harg9 : arg9.IsWhole) (hc0 : cond0_0 i) (hc1 : ¬cond0_1 i) (x0 x1 x2 : Vec F S512x2048 .f32) (x3 x4 x5 : Vec F S2048x64 .f32) :
    sout0_A_0 c i arg2 harg2 arg3 harg3 arg4 harg4 arg5 harg5 arg6 harg6 arg7 harg7 arg8 harg8 arg9 harg9 hc0 hc1 x0 x1 x2 x3 x4 x5 = upd zero x0 x1 x2 x3 x4 x5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x64) hz]
  simp only [Cert.ReadBack.readCov_cons_unit_zero (S := S512x64) _ hz, View.readCov_unit_zero (S := S512x64) _ hz,
    View.readAt_eq_ld, harg2.read_unread, harg3.read_unread, harg4.read_unread, harg5.read_unread, harg6.read_unread,
    harg7.read_unread, harg9.read_unread, View.ld_unit_zero (S := S512x2048) hz, View.ld_unit_zero (S := S2048x64) hz,
    View.ld_unit_zero (S := S512x64) hz]
  unfold k0_pay1 k0_pay2 k0_pay3 k0_pay4 k0_pay5 k0_pay6 upd mm zero
  simp only [shapeCast_self]

/-- A last-column point: the accumulator, holding `xs0`, ends at its update, -/
theorem scratch_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x64 .f32) (harg8 : arg8.IsWhole) (arg9 : Memref sig .tc .vmem S512x64 .f32) (harg9 : arg9.IsWhole) (hc0 : ¬cond0_0 i) (hc1 : cond0_1 i) (x0 x1 x2 : Vec F S512x2048 .f32) (x3 x4 x5 : Vec F S2048x64 .f32) (xs0 : Vec F S512x64 .f32) :
    sout0_C_0 c i arg2 harg2 arg3 harg3 arg4 harg4 arg5 harg5 arg6 harg6 arg7 harg7 arg8 harg8 arg9 harg9 hc0 hc1 x0 x1 x2 x3 x4 x5 xs0 = upd xs0 x0 x1 x2 x3 x4 x5 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_cons_unit_zero (S := S512x64) hz]
  simp only [Cert.ReadBack.readCov_cons_unit_zero (S := S512x64) _ hz, View.readCov_unit_zero (S := S512x64) _ hz,
    View.readAt_eq_ld, harg2.read_unread, harg3.read_unread, harg4.read_unread, harg5.read_unread, harg6.read_unread,
    harg7.read_unread, harg9.read_unread, View.ld_unit_zero (S := S512x2048) hz, View.ld_unit_zero (S := S2048x64) hz,
    View.ld_unit_zero (S := S512x64) hz]
  unfold k0_pay1 k0_pay3 k0_pay4 k0_pay5 k0_pay6 upd mm
  simp only [shapeCast_self]

/-- and the output block takes that same value: the body's last store copies the updated accumulator out. -/
theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x64 .f32) (harg8 : arg8.IsWhole) (arg9 : Memref sig .tc .vmem S512x64 .f32) (harg9 : arg9.IsWhole) (hc0 : ¬cond0_0 i) (hc1 : cond0_1 i) (x0 x1 x2 : Vec F S512x2048 .f32) (x3 x4 x5 : Vec F S2048x64 .f32) (xs0 : Vec F S512x64 .f32) :
    out0_C_6 c i arg2 harg2 arg3 harg3 arg4 harg4 arg5 harg5 arg6 harg6 arg7 harg7 arg8 harg8 arg9 harg9 hc0 hc1 x0 x1 x2 x3 x4 x5 xs0 = upd xs0 x0 x1 x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x64) hz]
  simp only [Cert.ReadBack.readCov_cons_unit_zero (S := S512x64) _ hz, View.readCov_unit_zero (S := S512x64) _ hz,
    View.readAt_eq_ld, harg2.read_unread, harg3.read_unread, harg4.read_unread, harg5.read_unread, harg6.read_unread,
    harg7.read_unread, harg9.read_unread, View.ld_unit_zero (S := S512x2048) hz, View.ld_unit_zero (S := S2048x64) hz,
    View.ld_unit_zero (S := S512x64) hz]
  unfold k0_pay1 k0_pay3 k0_pay4 k0_pay5 k0_pay6 upd mm
  simp only [shapeCast_self]

end Cert.KernelIdeal.Conv

end
-- ==== Proof.Chain.lean ====
/-
  One row block's accumulation over its four column points.

  The grid is 16 row blocks by 4 column blocks, visited row block by row block, so the points of row block `i` are
  `4i, 4i+1, 4i+2, 4i+3`. The first resets the accumulator, each adds its three block products, and the last also
  writes the accumulator to the output block. So what point `4i+3` writes out is four updates of the zero block,
  by the blocks the four points stage, in point order.
-/
import proofs.«101584_j17918603559109_1_alg».proof.Proof.Pieces

noncomputable section

open Idealize.ShloMosaic Idealize.ShloMosaic.TcCoe Idealize.SL.Sem

namespace Cert.KernelIdeal.Conv

open Cert.KernelIdeal Cert.KernelIdeal.Gen

variable {F : FTy → Type} [FloatOps F]
variable (m : (ℓ : Loc nD τ sig) → Buf (Elt F) ℓ)

/-- The blocks point `t` stages, at their literal shapes: of L0, L1, L2 (512×2048) and of X·W0, X·W1, X·W2 (2048×64). -/
abbrev lblk0 (c : Dev nD) (t : Fin cfg0.N) : Vec F S512x2048 .f32 := iblk m c 0 t
abbrev lblk1 (c : Dev nD) (t : Fin cfg0.N) : Vec F S512x2048 .f32 := iblk m c 1 t
abbrev lblk2 (c : Dev nD) (t : Fin cfg0.N) : Vec F S512x2048 .f32 := iblk m c 2 t
abbrev yblk0 (c : Dev nD) (t : Fin cfg0.N) : Vec F S2048x64 .f32 := iblk m c 3 t
abbrev yblk1 (c : Dev nD) (t : Fin cfg0.N) : Vec F S2048x64 .f32 := iblk m c 4 t
abbrev yblk2 (c : Dev nD) (t : Fin cfg0.N) : Vec F S2048x64 .f32 := iblk m c 5 t

/-- Point `t`'s update of an accumulator `s`, by the blocks it stages. -/
def step (c : Dev nD) (t : Fin cfg0.N) (s : Vec F S512x64 .f32) : Vec F S512x64 .f32 :=
  upd s (lblk0 m c t) (lblk1 m c t) (lblk2 m c t) (yblk0 m c t) (yblk1 m c t) (yblk2 m c t)

/-- A first-column point leaves the accumulator at its update of the zero block. -/
theorem scratch_first (c : Dev nD) (t : Fin cfg0.N) (h0 : t.val % 4 = 0) :
    (outsAt0 m c t.val t.isLt).2 = step m c t zero := by
  have h1 : ¬t.val % 4 = 3 := by omega
  rw [outsAt0_A m c t h0 h1]
  dsimp only
  exact scratch_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- A later point leaves it at its update of what the point before left. -/
theorem scratch_next (c : Dev nD) (n : ℕ) (hn : n + 1 < cfg0.N) (h0 : ¬(n + 1) % 4 = 0) :
    (outsAt0 m c (n + 1) hn).2 = step m c ⟨n + 1, hn⟩ (outsAt0 m c n (Nat.lt_of_succ_lt hn)).2 := by
  by_cases h1 : (n + 1) % 4 = 3
  · have e := outsAt0_C m c ⟨n + 1, hn⟩ h0 h1
    dsimp only at e
    rw [e]
    dsimp only
    exact scratch_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2
  · have e := outsAt0_B m c ⟨n + 1, hn⟩ h0 h1
    dsimp only at e
    rw [e]
    dsimp only
    exact scratch_B (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2

/-- A last-column point writes out its update of what the point before left. -/
theorem out_last (c : Dev nD) (n : ℕ) (hn : n + 1 < cfg0.N) (h1 : (n + 1) % 4 = 3) :
    (outsAt0 m c (n + 1) hn).1 = step m c ⟨n + 1, hn⟩ (outsAt0 m c n (Nat.lt_of_succ_lt hn)).2 := by
  have h0 : ¬(n + 1) % 4 = 0 := by omega
  have e := outsAt0_C m c ⟨n + 1, hn⟩ h0 h1
  dsimp only at e
  rw [e]
  dsimp only
  exact out_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2

/-- What the last point of a row block writes out: four updates of the zero block, in point order. -/
theorem out_row (c : Dev nD) (n : ℕ) (h3 : n + 3 < cfg0.N) (h0 : n % 4 = 0) :
    (outsAt0 m c (n + 3) h3).1
      = step m c ⟨n + 3, h3⟩ (step m c ⟨n + 2, by omega⟩ (step m c ⟨n + 1, by omega⟩ (step m c ⟨n, by omega⟩ zero))) := by
  rw [out_last m c (n + 2) h3 (by omega), scratch_next m c (n + 1) (by omega) (by omega),
    scratch_next m c n (by omega) (by omega), scratch_first m c ⟨n, by omega⟩ h0]

end Cert.KernelIdeal.Conv

end
-- ==== Proof.Blocks.lean ====
/-
  A staged block read at an entry is its array read at the global entry.

  Point `t` of the 16×4 grid is in row block `t / 4` and column block `t % 4`. The windows of L0, L1, L2 stage the
  512×2048 block at (row block, column block): entry `(p, k)` of the block is entry `(512·(t/4) + p, 2048·(t%4) + k)`
  of the array. The windows of X·W0, X·W1, X·W2 stage the 2048×64 block at (column block, 0): entry `(k, q)` of the
  block is entry `(2048·(t%4) + k, q)` of the array.
-/
import proofs.«101584_j17918603559109_1_alg».proof.Proof.Chain
import Idealize.ShloMosaic.Lib.ValueIdx

noncomputable section

open Idealize.ShloMosaic Idealize.ShloMosaic.TcCoe Idealize.SL.Sem Idealize.ShloMosaic.ValueIdx

namespace Cert.KernelIdeal.Conv

open Cert.KernelIdeal Cert.KernelIdeal.Gen

variable {F : FTy → Type} [FloatOps F]
variable (m : (ℓ : Loc nD τ sig) → Buf (Elt F) ℓ)

/-- The index maps in closed form, decided once over the 64 grid points. -/
theorem idxL0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idxL1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idxL2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idxY0 : ∀ t : Fin cfg0.N, win0_3.index t 0 = t.val % 4 ∧ win0_3.index t 1 = 0 :=
  (by decide +kernel : ∀ t : Fin grid0.N, win0_3.index t 0 = t.val % 4 ∧ win0_3.index t 1 = 0)
theorem idxY1 : ∀ t : Fin cfg0.N, win0_4.index t 0 = t.val % 4 ∧ win0_4.index t 1 = 0 :=
  (by decide +kernel : ∀ t : Fin grid0.N, win0_4.index t 0 = t.val % 4 ∧ win0_4.index t 1 = 0)
theorem idxY2 : ∀ t : Fin cfg0.N, win0_5.index t 0 = t.val % 4 ∧ win0_5.index t 1 = 0 :=
  (by decide +kernel : ∀ t : Fin grid0.N, win0_5.index t 0 = t.val % 4 ∧ win0_5.index t 1 = 0)

/-- The arrays as the region finds them, at their literal shapes. -/
abbrev arrL0 (c : Dev nD) : Vec F S8192x8192 .f32 := V m c main_arg1
abbrev arrL1 (c : Dev nD) : Vec F S8192x8192 .f32 := V m c main_arg2
abbrev arrL2 (c : Dev nD) : Vec F S8192x8192 .f32 := V m c main_arg3
abbrev arrY0 (c : Dev nD) : Vec F S8192x64 .f32 := V m c main_v0
abbrev arrY1 (c : Dev nD) : Vec F S8192x64 .f32 := V m c main_v1
abbrev arrY2 (c : Dev nD) : Vec F S8192x64 .f32 := V m c main_v2

theorem lblk0_apply (c : Dev nD) (t : Fin cfg0.N) (p : Fin 512) (k : Fin 2048) (r k' : Fin 8192)
    (hr : r.val = 512 * (t.val / 4) + p.val) (hk : k'.val = 2048 * (t.val % 4) + k.val) :
    lblk0 m c t (ix2 p k) = arrL0 m c (ix2 r k') := by
  have hi := idxL0 t
  show iblk m c 0 t (ix2 p k) = _
  unfold iblk
  rw [View.read_apply]
  show V m c main_arg1 _ = V m c main_arg1 _
  congr 1
  funext a
  apply Fin.ext
  match a with
  | ⟨0, _⟩ => show win0_0.index t 0 * 512 + 1 * p.val = r.val; rw [hi.1, hr]; omega
  | ⟨1, _⟩ => show win0_0.index t 1 * 2048 + 1 * k.val = k'.val; rw [hi.2, hk]; omega

theorem lblk1_apply (c : Dev nD) (t : Fin cfg0.N) (p : Fin 512) (k : Fin 2048) (r k' : Fin 8192)
    (hr : r.val = 512 * (t.val / 4) + p.val) (hk : k'.val = 2048 * (t.val % 4) + k.val) :
    lblk1 m c t (ix2 p k) = arrL1 m c (ix2 r k') := by
  have hi := idxL1 t
  show iblk m c 1 t (ix2 p k) = _
  unfold iblk
  rw [View.read_apply]
  show V m c main_arg2 _ = V m c main_arg2 _
  congr 1
  funext a
  apply Fin.ext
  match a with
  | ⟨0, _⟩ => show win0_1.index t 0 * 512 + 1 * p.val = r.val; rw [hi.1, hr]; omega
  | ⟨1, _⟩ => show win0_1.index t 1 * 2048 + 1 * k.val = k'.val; rw [hi.2, hk]; omega

theorem lblk2_apply (c : Dev nD) (t : Fin cfg0.N) (p : Fin 512) (k : Fin 2048) (r k' : Fin 8192)
    (hr : r.val = 512 * (t.val / 4) + p.val) (hk : k'.val = 2048 * (t.val % 4) + k.val) :
    lblk2 m c t (ix2 p k) = arrL2 m c (ix2 r k') := by
  have hi := idxL2 t
  show iblk m c 2 t (ix2 p k) = _
  unfold iblk
  rw [View.read_apply]
  show V m c main_arg3 _ = V m c main_arg3 _
  congr 1
  funext a
  apply Fin.ext
  match a with
  | ⟨0, _⟩ => show win0_2.index t 0 * 512 + 1 * p.val = r.val; rw [hi.1, hr]; omega
  | ⟨1, _⟩ => show win0_2.index t 1 * 2048 + 1 * k.val = k'.val; rw [hi.2, hk]; omega

theorem yblk0_apply (c : Dev nD) (t : Fin cfg0.N) (k : Fin 2048) (q : Fin 64) (k' : Fin 8192)
    (hk : k'.val = 2048 * (t.val % 4) + k.val) :
    yblk0 m c t (ix2 k q) = arrY0 m c (ix2 k' q) := by
  have hi := idxY0 t
  show iblk m c 3 t (ix2 k q) = _
  unfold iblk
  rw [View.read_apply]
  show V m c main_v0 _ = V m c main_v0 _
  congr 1
  funext a
  apply Fin.ext
  match a with
  | ⟨0, _⟩ => show win0_3.index t 0 * 2048 + 1 * k.val = k'.val; rw [hi.1, hk]; omega
  | ⟨1, _⟩ => show win0_3.index t 1 * 64 + 1 * q.val = q.val; rw [hi.2]; omega

theorem yblk1_apply (c : Dev nD) (t : Fin cfg0.N) (k : Fin 2048) (q : Fin 64) (k' : Fin 8192)
    (hk : k'.val = 2048 * (t.val % 4) + k.val) :
    yblk1 m c t (ix2 k q) = arrY1 m c (ix2 k' q) := by
  have hi := idxY1 t
  show iblk m c 4 t (ix2 k q) = _
  unfold iblk
  rw [View.read_apply]
  show V m c main_v1 _ = V m c main_v1 _
  congr 1
  funext a
  apply Fin.ext
  match a with
  | ⟨0, _⟩ => show win0_4.index t 0 * 2048 + 1 * k.val = k'.val; rw [hi.1, hk]; omega
  | ⟨1, _⟩ => show win0_4.index t 1 * 64 + 1 * q.val = q.val; rw [hi.2]; omega

theorem yblk2_apply (c : Dev nD) (t : Fin cfg0.N) (k : Fin 2048) (q : Fin 64) (k' : Fin 8192)
    (hk : k'.val = 2048 * (t.val % 4) + k.val) :
    yblk2 m c t (ix2 k q) = arrY2 m c (ix2 k' q) := by
  have hi := idxY2 t
  show iblk m c 5 t (ix2 k q) = _
  unfold iblk
  rw [View.read_apply]
  show V m c main_v2 _ = V m c main_v2 _
  congr 1
  funext a
  apply Fin.ext
  match a with
  | ⟨0, _⟩ => show win0_5.index t 0 * 2048 + 1 * k.val = k'.val; rw [hi.1, hk]; omega
  | ⟨1, _⟩ => show win0_5.index t 1 * 64 + 1 * q.val = q.val; rw [hi.2]; omega

end Cert.KernelIdeal.Conv

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.ValueAt.lean ====
/-
  One grid point's update read at an entry, over the extended reals.

  A change of float format is the identity there, so a block product's entry `(p, q)` is the plain sum over the
  2048 contracted positions of `l (p, k) · r (k, q)`, and the update of an accumulator `s` adds the three such sums
  to `s (p, q)` one after the other. The zero block's entries are the real number zero.
-/
import proofs.«101584_j17918603559109_1_alg».proof.Proof.Pieces
import proofs.«101584_j17918603559109_1_alg».proof.Proof.LibRowOps
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Conv

open Cert.KernelIdeal Cert.KernelIdeal.Gen

/-- A block product at `(p, q)`: the sum over the block's 2048 contracted positions. -/
theorem mm_apply (l : Vec Ideal S512x2048 .f32) (r : Vec Ideal S2048x64 .f32) (p : Fin 512) (q : Fin 64) :
    mm (F := Ideal) l r (ix2 p q) = ∑ k : Fin 2048, l (ix2 p k) * r (ix2 k q) := by
  unfold mm
  exact Cert.RowOps.matmul_apply (M := 512) (K := 2048) (N := 64) dot_S512x2048_S2048x64_S512x64_1_0_0_1_n_n_wf none
    (truncf .bf16 l bitsLt_bf16_f32) (truncf .bf16 r bitsLt_bf16_f32) p q

/-- The update at `(p, q)`: the entry of `s` plus the three block products' entries, in order. -/
theorem upd_apply (s : Vec Ideal S512x64 .f32) (x0 x1 x2 : Vec Ideal S512x2048 .f32) (x3 x4 x5 : Vec Ideal S2048x64 .f32)
    (p : Fin 512) (q : Fin 64) :
    upd (F := Ideal) s x0 x1 x2 x3 x4 x5 (ix2 p q)
      = ((s (ix2 p q) + ∑ k : Fin 2048, x0 (ix2 p k) * x3 (ix2 k q)) + ∑ k : Fin 2048, x1 (ix2 p k) * x4 (ix2 k q))
          + ∑ k : Fin 2048, x2 (ix2 p k) * x5 (ix2 k q) := by
  unfold upd
  rw [addf_apply, addf_apply, addf_apply, mm_apply, mm_apply, mm_apply]

/-- The zero block's entries are zero. -/
theorem zero_apply (y : S512x64.Idx) : zero (F := Ideal) y = 0 := by
  unfold zero
  rw [broadcast_apply]
  exact Ideal.ofBits_zero_f32

end Cert.KernelIdeal.Conv

end
-- ==== Proof.Regroup.lean ====
/-
  Two facts about finite sums in a commutative additive monoid (used at the extended reals).

  A sum over `R * K` positions is the sum, over the `R` consecutive blocks of `K` positions, of each block's
  sum: position `k` of block `jb` is `k + K * jb`.

  An accumulator that starts at zero and, at each of four steps, is increased by three terms one after the other
  ends at the three four-term sums added together: only the order and the grouping of the twelve terms differ.
-/
import Mathlib.Algebra.BigOperators.Group.Finset.Basic
import Mathlib.Algebra.BigOperators.Fin
import Mathlib.Data.Fintype.BigOperators
import Mathlib.Logic.Equiv.Fin.Basic

namespace Cert.Regroup

variable {M : Type*} [AddCommMonoid M]

/-- Position `k` of block `jb`, among `R * K` positions laid out block after block. -/
def pos (R K : ℕ) (jb : Fin R) (k : Fin K) : Fin (R * K) := finProdFinEquiv (jb, k)

theorem pos_val (R K : ℕ) (jb : Fin R) (k : Fin K) : (pos R K jb k).val = k.val + K * jb.val := rfl

/-- A sum over all positions, taken block by block. -/
theorem sum_blocks (R K : ℕ) (a : Fin (R * K) → M) :
    ∑ y, a y = ∑ jb : Fin R, ∑ k : Fin K, a (pos R K jb k) := by
  rw [← finProdFinEquiv.sum_comp a, Fintype.sum_prod_type]
  rfl

/-- Four steps of `s ↦ ((s + A j) + B j) + C j` from zero give `∑ A + ∑ B + ∑ C`. -/
theorem acc_four (A B C : Fin 4 → M) :
    ((((((((((((0 + A 0) + B 0) + C 0) + A 1) + B 1) + C 1) + A 2) + B 2) + C 2) + A 3) + B 3) + C 3)
      = ((∑ j, A j) + ∑ j, B j) + ∑ j, C j := by
  rw [Fin.sum_univ_four, Fin.sum_univ_four, Fin.sum_univ_four, zero_add]
  ac_rfl

end Cert.Regroup
-- ==== Proof.RowValue.lean ====
/-
  What a row block's last point writes out is the convolution's rows of that block.

  Fix an output entry: row `r = 512·i + p` of row block `i`, column `q`. Over the extended reals the convolution's
  entry is `Σₖ L0(r,k)·Y0(k,q) + Σₖ L1(r,k)·Y1(k,q) + Σₖ L2(r,k)·Y2(k,q)`, each sum over all 8192 positions `k`,
  where `Yₙ = X·Wₙ`. Column block `j` holds positions `2048·j … 2048·j + 2047`; its share of one of the three sums is
  the sum over those positions. The point in column `j` of the row block adds its three shares to the accumulator,
  so the four points, starting from zero, add all twelve shares: the same twelve terms the three whole sums
  consist of, in another order and grouping. Addition of extended reals is commutative and associative, so the two
  are equal; no entry needs to be finite for that.
-/
import proofs.«101584_j17918603559109_1_alg».proof.Proof.Blocks
import proofs.«101584_j17918603559109_1_alg».proof.Proof.ValueAt
import proofs.«101584_j17918603559109_1_alg».proof.Proof.Regroup

noncomputable section

open Idealize.ShloMosaic Idealize.ShloMosaic.TcCoe Idealize.SL.Sem Idealize.ShloMosaic.ValueIdx

namespace Cert.KernelIdeal.Conv

open Cert.KernelIdeal Cert.KernelIdeal.Gen Cert.Regroup

/-- One of the three sums of the convolution's entry `(r, q)`: over all 8192 contracted positions. -/
def fullSum (L : Vec Ideal S8192x8192 .f32) (Y : Vec Ideal S8192x64 .f32) (r : Fin 8192) (q : Fin 64) : EReal :=
  ∑ k : Fin (4 * 2048), L (ix2 r k) * Y (ix2 k q)

/-- Column block `j`'s share of it: over the block's 2048 positions. -/
def colSum (L : Vec Ideal S8192x8192 .f32) (Y : Vec Ideal S8192x64 .f32) (r : Fin 8192) (q : Fin 64) (j : Fin 4) : EReal :=
  ∑ k : Fin 2048, L (ix2 r (pos 4 2048 j k)) * Y (ix2 (pos 4 2048 j k) q)

/-- A whole sum is the sum of its four column blocks' shares. -/
theorem fullSum_eq (L : Vec Ideal S8192x8192 .f32) (Y : Vec Ideal S8192x64 .f32) (r : Fin 8192) (q : Fin 64) :
    fullSum L Y r q = ∑ j : Fin 4, colSum L Y r q j :=
  sum_blocks 4 2048 fun k => L (ix2 r k) * Y (ix2 k q)

/-- The convolution `L0·Y0 + L1·Y1 + L2·Y2`, entry by entry. -/
def conv (L0 L1 L2 : Vec Ideal S8192x8192 .f32) (Y0 Y1 Y2 : Vec Ideal S8192x64 .f32) : Vec Ideal S8192x64 .f32 :=
  fun y => (fullSum L0 Y0 (y 0) (y 1) + fullSum L1 Y1 (y 0) (y 1)) + fullSum L2 Y2 (y 0) (y 1)

variable (m : (ℓ : Loc nD τ sig) → Buf (Elt Ideal) ℓ)

/-- The point in column `j` of its row block adds that column block's three shares to the accumulator. -/
theorem step_point (c : Dev nD) (t : Fin cfg0.N) (j : Fin 4) (hj : t.val % 4 = j.val) (s : Vec Ideal S512x64 .f32)
    (p : Fin 512) (q : Fin 64) (r : Fin 8192) (hr : r.val = 512 * (t.val / 4) + p.val) :
    step m c t s (ix2 p q)
      = ((s (ix2 p q) + colSum (arrL0 m c) (arrY0 m c) r q j) + colSum (arrL1 m c) (arrY1 m c) r q j)
          + colSum (arrL2 m c) (arrY2 m c) r q j := by
  have hk : ∀ k : Fin 2048, (pos 4 2048 j k).val = 2048 * (t.val % 4) + k.val := fun k => by
    rw [pos_val, hj]; omega
  have e0 : ∑ k : Fin 2048, lblk0 m c t (ix2 p k) * yblk0 m c t (ix2 k q) = colSum (arrL0 m c) (arrY0 m c) r q j := by
    unfold colSum
    exact Finset.sum_congr rfl fun k _ => by
      rw [lblk0_apply m c t p k r (pos 4 2048 j k) hr (hk k), yblk0_apply m c t k q (pos 4 2048 j k) (hk k)]
  have e1 : ∑ k : Fin 2048, lblk1 m c t (ix2 p k) * yblk1 m c t (ix2 k q) = colSum (arrL1 m c) (arrY1 m c) r q j := by
    unfold colSum
    exact Finset.sum_congr rfl fun k _ => by
      rw [lblk1_apply m c t p k r (pos 4 2048 j k) hr (hk k), yblk1_apply m c t k q (pos 4 2048 j k) (hk k)]
  have e2 : ∑ k : Fin 2048, lblk2 m c t (ix2 p k) * yblk2 m c t (ix2 k q) = colSum (arrL2 m c) (arrY2 m c) r q j := by
    unfold colSum
    exact Finset.sum_congr rfl fun k _ => by
      rw [lblk2_apply m c t p k r (pos 4 2048 j k) hr (hk k), yblk2_apply m c t k q (pos 4 2048 j k) (hk k)]
  unfold step
  rw [upd_apply, e0, e1, e2]

/-- Four points from zero: entry `(p, q)` of what row block `n / 4`'s last point writes out is the convolution's
    entry at row `512·(n/4) + p`, column `q`. -/
theorem row_value (c : Dev nD) (n : ℕ) (h3 : n + 3 < cfg0.N) (h0 : n % 4 = 0) (p : Fin 512) (q : Fin 64) (r : Fin 8192)
    (hr : r.val = 512 * (n / 4) + p.val) :
    step m c ⟨n + 3, h3⟩ (step m c ⟨n + 2, by omega⟩ (step m c ⟨n + 1, by omega⟩ (step m c ⟨n, by omega⟩ zero))) (ix2 p q)
      = conv (arrL0 m c) (arrL1 m c) (arrL2 m c) (arrY0 m c) (arrY1 m c) (arrY2 m c) (ix2 r q) := by
  rw [step_point m c ⟨n + 3, h3⟩ 3 (by show (n + 3) % 4 = 3; omega) _ p q r (by show r.val = 512 * ((n + 3) / 4) + p.val; omega),
    step_point m c ⟨n + 2, by omega⟩ 2 (by show (n + 2) % 4 = 2; omega) _ p q r (by show r.val = 512 * ((n + 2) / 4) + p.val; omega),
    step_point m c ⟨n + 1, by omega⟩ 1 (by show (n + 1) % 4 = 1; omega) _ p q r (by show r.val = 512 * ((n + 1) / 4) + p.val; omega),
    step_point m c ⟨n, by omega⟩ 0 (by show n % 4 = 0; omega) _ p q r (by show r.val = 512 * (n / 4) + p.val; omega),
    zero_apply]
  show _ = (fullSum _ _ r q + fullSum _ _ r q) + fullSum _ _ r q
  rw [fullSum_eq, fullSum_eq, fullSum_eq]
  exact acc_four _ _ _

end Cert.KernelIdeal.Conv

end
-- ==== Proof.ConvArray.lean ====
/-
  The region's output array is the convolution.

  Output window 6 stages the 512×64 block at (row block, 0) and is written back exactly at the last column point
  of each row block, `t % 4 = 3`. What is written there is the convolution's rows `512·(t/4) … 512·(t/4) + 511`,
  and row `r` of the array lies in the block of point `4·(r / 512) + 3`: the sixteen written blocks tile the array,
  so it ends holding the convolution.
-/
import proofs.«101584_j17918603559109_1_alg».proof.Proof.RowValue

noncomputable section

open Idealize.ShloMosaic Idealize.ShloMosaic.TcCoe Idealize.SL.Sem Idealize.ShloMosaic.ValueIdx
open Idealize.ShloMosaic.Pipeline (Dat)

namespace Cert.KernelIdeal.Conv

open Cert.KernelIdeal Cert.KernelIdeal.Gen

variable (m : (ℓ : Loc nD τ sig) → Buf (Elt Ideal) ℓ)

/-- The convolution of the arrays as the region finds them. -/
abbrev convArr (c : Dev nD) : Vec Ideal S8192x64 .f32 :=
  conv (arrL0 m c) (arrL1 m c) (arrL2 m c) (arrY0 m c) (arrY1 m c) (arrY2 m c)

/-- The output window's index map in closed form, decided once over the 64 grid points. -/
theorem idxO : ∀ t : Fin cfg0.N, win0_6.index t 0 = t.val / 4 ∧ win0_6.index t 1 = 0 :=
  (by decide +kernel : ∀ t : Fin grid0.N, win0_6.index t 0 = t.val / 4 ∧ win0_6.index t 1 = 0)

/-- Entry `y` of what a last-column point writes out is the convolution's entry in row `512·(t/4) + y₀`, column `y₁`. -/
theorem out_block (c : Dev nD) (t : Fin cfg0.N) (h3 : t.val % 4 = 3) (y : S512x64.Idx) (i : S8192x64.Idx)
    (hi0 : (i 0).val = 512 * (t.val / 4) + (y 0).val) (hi1 : (i 1).val = (y 1).val) :
    (outsAt0 m c t.val t.isLt).1 y = convArr m c i := by
  obtain ⟨tv, tlt⟩ := t
  obtain ⟨n, rfl⟩ : ∃ n, tv = n + 3 := ⟨tv - 3, by dsimp only at h3; omega⟩
  dsimp only at h3 hi0 ⊢
  have ey : y = ix2 (y 0) (y 1) := eq_ix2 y
  have ei : i = ix2 (i 0) (y 1) := by
    rw [eq_ix2 i]
    exact congrArg (ix2 (i 0)) (Fin.ext hi1)
  rw [ey, ei, out_row m c n tlt (by omega)]
  exact row_value m c n tlt (by omega) (y 0) (y 1) (i 0) (by rw [hi0]; omega)

/-- What a flushing point writes back is its block of the convolution. -/
theorem flushed_eq (c : Dev nD) (t : Fin cfg0.N) (hf : (cfg0.win 6).flush t = true) :
    (dats m 0 c).flushed 6 t = ((cfg0.win 6).blk t).view.read (Elt Ideal) (convArr m c) := by
  have h3 : t.val % 4 = 3 := (flush0_6 t).mp hf
  have hi := idxO t
  show (cfg0.win 6).cut (grid0.coords t) ((dats m 0 c).after 6 t) = _
  rw [after0_6]
  funext j
  show (outsAt0 m c t.val t.isLt).1 j = convArr m c (((cfg0.win 6).blk t).view.emb j)
  refine out_block m c t h3 j _ ?_ ?_
  · show win0_6.index t 0 * 512 + 1 * (j 0).val = 512 * (t.val / 4) + (j 0).val
    rw [hi.1]; omega
  · show win0_6.index t 1 * 64 + 1 * (j 1).val = (j 1).val
    rw [hi.2]; omega

/-- An index of the array is in point `t`'s block iff each coordinate is in the block's range on its axis. -/
theorem mem_blk (t : Fin cfg0.N) (i : S8192x64.Idx) :
    i ∈ ((cfg0.win 6).blk t).view.set ↔ ∀ a : Fin 2, win0_6.index t a * S512x64.size a ≤ (i a).val ∧ (i a).val < win0_6.index t a * S512x64.size a + S512x64.size a := by
  show i ∈ ((View.whole main_v3).slice (win0_6.rect t)).set ↔ _
  rw [View.set_slice_whole, Rect.mem_set_unit]
  exact Iff.rfl

/-- The region's output array ends holding the convolution. -/
theorem final (c : Dev nD) : (dats m 0 c).arrAt 6 cfg0.N = convArr m c :=
  (dats m 0 c).arrAt_eq_of_cover 6 (convArr m c) (flushed_eq m c) fun i => by
    have hN : cfg0.N = 64 := N_0
    have hr : (i 0).val < 8192 := (i 0).isLt
    have hq : (i 1).val < 64 := (i 1).isLt
    have hlt : 4 * ((i 0).val / 512) + 3 < cfg0.N := by omega
    refine ⟨⟨4 * ((i 0).val / 512) + 3, hlt⟩, (flush0_6 _).mpr (by show (4 * ((i 0).val / 512) + 3) % 4 = 3; omega), ?_⟩
    rw [mem_blk]
    have hi := idxO ⟨4 * ((i 0).val / 512) + 3, hlt⟩
    intro a
    match a with
    | ⟨0, _⟩ =>
      show win0_6.index ⟨4 * ((i 0).val / 512) + 3, hlt⟩ 0 * 512 ≤ (i 0).val ∧ (i 0).val < win0_6.index ⟨4 * ((i 0).val / 512) + 3, hlt⟩ 0 * 512 + 512
      rw [hi.1]
      show (4 * ((i 0).val / 512) + 3) / 4 * 512 ≤ (i 0).val ∧ (i 0).val < (4 * ((i 0).val / 512) + 3) / 4 * 512 + 512
      omega
    | ⟨1, _⟩ =>
      show win0_6.index ⟨4 * ((i 0).val / 512) + 3, hlt⟩ 1 * 64 ≤ (i 1).val ∧ (i 1).val < win0_6.index ⟨4 * ((i 0).val / 512) + 3, hlt⟩ 1 * 64 + 64
      rw [hi.2]
      omega

end Cert.KernelIdeal.Conv

end
-- ==== Proof.Tail.lean ====
/-
  The host operations after the region, as one function of the region's output.

  After the convolution `x` the program adds the bias to every row, takes `max(·, 0)`, and normalises each column:
  with `y` the rectified array, `mean = (Σ over the 8192 rows of y) / 8192` per column, `d = y − mean`,
  `var = (Σ over rows of d·d) / 8192`, the result is `d · rsqrt(var + ε) · gamma + beta`, where `ε` is the f32 nearest
  to 1e-5 and gamma, beta are spread over the rows. Kernel and reference apply this same function, with the same
  literals, to their convolutions, so it is kept as ONE function and never opened.
-/
import proofs.«101584_j17918603559109_1_alg».proof.Proof.ConvArray
import Idealize.ShloMosaic.Lib.StableHlo.Run
import Idealize.ShloMosaic.Lib.Tactic

set_option maxRecDepth 8192

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Conv

open Cert.KernelIdeal Cert.KernelIdeal.Gen

section
variable {F : FTy → Type} [FloatOps F]

/-- A length-64 vector spread over the 8192 rows. -/
def rows (v : (⟨S64, .f32⟩ : BufTy).Contents (Elt F)) : (⟨S8192x64, .f32⟩ : BufTy).Contents (Elt F) :=
  broadcastInDim S8192x64 ![0, 1] bcast_S1x64_S8192x64_0_1 (broadcastInDim S1x64 ![1] bcast_S64_S1x64_1 v)

/-- The count of rows, 8192.0, as a length-64 vector. -/
def rowCount : (⟨S64, .f32⟩ : BufTy).Contents (Elt F) := broadcastInDim S64 ![] bcast_S_S64 (constant S_ .f32 0x46000000#32)

/-- A column's mean over the rows: the sum from zero, divided by the count. -/
def colMean (y : (⟨S8192x64, .f32⟩ : BufTy).Contents (Elt F)) : (⟨S64, .f32⟩ : BufTy).Contents (Elt F) :=
  Host.divf (Host.reduceAdd y (constant S_ .f32 0x00000000#32) reducesTo_S8192x64_S64_d0 h_S_) (rowCount (F := F))

/-- Bias, rectification and the column-wise normalisation, of a convolution `x`. -/
def tail (x : (⟨S8192x64, .f32⟩ : BufTy).Contents (Elt F)) (b g be : (⟨S64, .f32⟩ : BufTy).Contents (Elt F)) : (⟨S8192x64, .f32⟩ : BufTy).Contents (Elt F) :=
  let y := maximumf (addf x (rows b)) (broadcastInDim S8192x64 ![] bcast_S_S8192x64 (constant S_ .f32 0x00000000#32))
  let d := subf y (rows (colMean y))
  let inv := Host.rsqrt (addf (colMean (mulf d d)) (broadcastInDim S64 ![] bcast_S_S64 (constant S_ .f32 0x3727C5AC#32)))
  addf (mulf (mulf (subf y (rows (colMean y))) (rows inv)) (rows g)) (rows be)
end

variable (m : (ℓ : Loc nD τ sig) → Buf (Elt Ideal) ℓ)

set_option maxHeartbeats 2000000 in
/-- The program's result: the tail of the convolution of the arrays as the region finds them. -/
theorem tail_eq (c : Dev nD) :
    Pipeline.afterTail₀ cfgs (dats m) 0 (V0 m) [hostOps1, hostOps1_1, hostOps1_2] c main_v32
      = tail (F := Ideal) (convArr m c) (m ((c.tc : Thread nD τ).loc main_arg7)) (m ((c.tc : Thread nD τ).loc main_arg8)) (m ((c.tc : Thread nD τ).loc main_arg9)) := by
  have hx : Pipeline.withArrays (cfgs 0).spec c (V0 m c) (fun w => (dats m 0 c).arrAt w (cfgs 0).N) (Proc.devRef .tc main_v3) = convArr m c :=
    (Pipeline.withArrays_arr spec0 launch0.win.arr_inj c _ _ 6).trans (final m c)
  have h7 : Pipeline.withArrays (cfgs 0).spec c (V0 m c) (fun w => (dats m 0 c).arrAt w (cfgs 0).N) (Proc.devRef .tc main_arg7) = (m ((c.tc : Thread nD τ).loc main_arg7)) :=
    (Pipeline.withArrays_of_ne _ c (V0 m c) _ main_arg7 (by exact (by decide : ∀ w, Pipeline.arrRef spec0 w ≠ main_arg7))).trans (V_main_arg7 m c)
  have h8 : Pipeline.withArrays (cfgs 0).spec c (V0 m c) (fun w => (dats m 0 c).arrAt w (cfgs 0).N) (Proc.devRef .tc main_arg8) = (m ((c.tc : Thread nD τ).loc main_arg8)) :=
    (Pipeline.withArrays_of_ne _ c (V0 m c) _ main_arg8 (by exact (by decide : ∀ w, Pipeline.arrRef spec0 w ≠ main_arg8))).trans (V_main_arg8 m c)
  have h9 : Pipeline.withArrays (cfgs 0).spec c (V0 m c) (fun w => (dats m 0 c).arrAt w (cfgs 0).N) (Proc.devRef .tc main_arg9) = (m ((c.tc : Thread nD τ).loc main_arg9)) :=
    (Pipeline.withArrays_of_ne _ c (V0 m c) _ main_arg9 (by exact (by decide : ∀ w, Pipeline.arrRef spec0 w ≠ main_arg9))).trans (V_main_arg9 m c)
  unfold Pipeline.afterTail₀
  simp only [hostOps1, hostOps1_1, hostOps1_2, List.flatten_cons, List.flatten_nil, List.append_nil, List.cons_append,
    List.nil_append]
  after_results_simp
  rw [hx, h7, h8, h9]
  rfl

end Cert.KernelIdeal.Conv

end
-- ==== Proof.KernelRun.lean ====
/-
  The kernel program's run, read: its result is the tail of the convolution of its arguments.

  Before the region the host computes `X·W0`, `X·W1`, `X·W2`; the region's other three operands are the arguments
  L0, L1, L2 themselves. So the result is `tail (conv L0 L1 L2 (X·W0) (X·W1) (X·W2)) bias gamma beta` of the launch
  contents, and every argument array ends unchanged.
-/
import proofs.«101584_j17918603559109_1_alg».proof.Proof.Tail

set_option maxRecDepth 8192

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Conv

open Cert.KernelIdeal Cert.KernelIdeal.Gen

variable (m : (ℓ : Loc nD τ sig) → Buf (Elt Ideal) ℓ) (ρ : Dev nD → PrngReg)

/-- `X·W` as the host computes it: one `dot_general` contracting X's columns with W's rows. -/
def xw (x : (⟨S8192x64, .f32⟩ : BufTy).Contents (Elt Ideal)) (w : (⟨S64x64, .f32⟩ : BufTy).Contents (Elt Ideal)) :
    (⟨S8192x64, .f32⟩ : BufTy).Contents (Elt Ideal) :=
  Host.dotGeneral (F := Ideal) (φ₁ := .f32) (φ₂ := .f32) dot_S8192x64_S64x64_S8192x64_1_0_0_1_n_n none x w

theorem arrL0_eq (c : Dev nD) : arrL0 m c = (m ((c.tc : Thread nD τ).loc main_arg1)) := V_main_arg1 m c
theorem arrL1_eq (c : Dev nD) : arrL1 m c = (m ((c.tc : Thread nD τ).loc main_arg2)) := V_main_arg2 m c
theorem arrL2_eq (c : Dev nD) : arrL2 m c = (m ((c.tc : Thread nD τ).loc main_arg3)) := V_main_arg3 m c

/-- `X·W0`, as the host line before the region computes it. -/
theorem arrY0_eq (c : Dev nD) :
    arrY0 m c = xw (m ((c.tc : Thread nD τ).loc main_arg0)) (m ((c.tc : Thread nD τ).loc main_arg4)) := by
  show StableHlo.after hostOps0 (fun b => m (c, b)) (Proc.devRef .tc main_v0) = _
  after_results
  rfl

/-- `X·W1`, as the host line before the region computes it. -/
theorem arrY1_eq (c : Dev nD) :
    arrY1 m c = xw (m ((c.tc : Thread nD τ).loc main_arg0)) (m ((c.tc : Thread nD τ).loc main_arg5)) := by
  show StableHlo.after hostOps0 (fun b => m (c, b)) (Proc.devRef .tc main_v1) = _
  after_results
  rfl

/-- `X·W2`, as the host line before the region computes it. -/
theorem arrY2_eq (c : Dev nD) :
    arrY2 m c = xw (m ((c.tc : Thread nD τ).loc main_arg0)) (m ((c.tc : Thread nD τ).loc main_arg6)) := by
  show StableHlo.after hostOps0 (fun b => m (c, b)) (Proc.devRef .tc main_v2) = _
  after_results
  rfl

/-- The kernel program's result, as a function of the launch contents of its arguments. -/
def result (c : Dev nD) : Buf (Elt Ideal) ((c.tc : Thread nD τ).loc main_v32) :=
  tail (F := Ideal)
    (conv (m ((c.tc : Thread nD τ).loc main_arg1)) (m ((c.tc : Thread nD τ).loc main_arg2)) (m ((c.tc : Thread nD τ).loc main_arg3))
      (xw (m ((c.tc : Thread nD τ).loc main_arg0)) (m ((c.tc : Thread nD τ).loc main_arg4)))
      (xw (m ((c.tc : Thread nD τ).loc main_arg0)) (m ((c.tc : Thread nD τ).loc main_arg5)))
      (xw (m ((c.tc : Thread nD τ).loc main_arg0)) (m ((c.tc : Thread nD τ).loc main_arg6))))
    (m ((c.tc : Thread nD τ).loc main_arg7)) (m ((c.tc : Thread nD τ).loc main_arg8)) (m ((c.tc : Thread nD τ).loc main_arg9))

theorem result_eq (c : Dev nD) :
    Pipeline.afterTail₀ cfgs (dats m) 0 (V0 m) [hostOps1, hostOps1_1, hostOps1_2] c main_v32 = result m c := by
  rw [tail_eq]
  show tail (F := Ideal) (conv (arrL0 m c) (arrL1 m c) (arrL2 m c) (arrY0 m c) (arrY1 m c) (arrY2 m c)) _ _ _ = _
  rw [arrL0_eq, arrL1_eq, arrL2_eq, arrY0_eq, arrY1_eq, arrY2_eq]
  rfl

/-- Every weakly fair execution of the kernel program ends with its result at `result` and its arguments unchanged. -/
theorem run : θ_run defs (onTc (τ := τ) (main (F := Ideal))) ⟨m, fun _ => 0, ρ⟩ fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v32 (Pipeline.mem_restRefs_of main_v32 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Conv

end
-- ==== Proof.RefConv.lean ====
/-
  The reference computes the same two functions.

  Its convolution is three whole matrix products added: at an entry, each product is the sum over all 8192
  positions `k` of `Lₙ(r, k) · (X·Wₙ)(k, q)`, which is the convolution's entry as the kernel side states it. What
  follows the convolution in the reference is, operation by operation and literal by literal, the tail the kernel's
  program applies.
-/
import proofs.«101584_j17918603559109_1_alg».proof.Proof.Gen.ReferenceIdeal.Read
import proofs.«101584_j17918603559109_1_alg».proof.Proof.Tail

set_option maxRecDepth 8192

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read
open Cert.KernelIdeal.Conv (conv fullSum tail)

/-- The reference's sum of three matrix products is the convolution of its operands. -/
theorem conv_ref (x0 : (⟨S8192x64, .f32⟩ : BufTy).Contents (Elt Ideal)) (x1 x2 x3 : (⟨S8192x8192, .f32⟩ : BufTy).Contents (Elt Ideal)) (x4 x5 x6 : (⟨S64x64, .f32⟩ : BufTy).Contents (Elt Ideal)) :
    val_main_v7 (F := Ideal) x0 x1 x2 x3 x4 x5 x6
      = conv x1 x2 x3 (val_main_v0 (F := Ideal) x0 x4) (val_main_v2 (F := Ideal) x0 x5) (val_main_v5 (F := Ideal) x0 x6) := by
  funext i
  rw [val_main_v7_apply, val_main_v4_apply, val_main_v1_apply, val_main_v3_apply, val_main_v6_apply]
  have s1 : ∑ k : Fin 8192, x1 (lidx_main_v1 i k) * (val_main_v0 (F := Ideal) x0 x4) (ridx_main_v1 i k)
      = fullSum x1 (val_main_v0 (F := Ideal) x0 x4) (i 0) (i 1) :=
    Finset.sum_congr rfl fun k _ => by
      rw [show lidx_main_v1 i k = ix2 (i 0) k from funext fun a => by match a with | ⟨0, _⟩ => rfl | ⟨1, _⟩ => rfl,
        show ridx_main_v1 i k = ix2 k (i 1) from funext fun a => by match a with | ⟨0, _⟩ => rfl | ⟨1, _⟩ => rfl]
      rfl
  have s2 : ∑ k : Fin 8192, x2 (lidx_main_v3 i k) * (val_main_v2 (F := Ideal) x0 x5) (ridx_main_v3 i k)
      = fullSum x2 (val_main_v2 (F := Ideal) x0 x5) (i 0) (i 1) :=
    Finset.sum_congr rfl fun k _ => by
      rw [show lidx_main_v3 i k = ix2 (i 0) k from funext fun a => by match a with | ⟨0, _⟩ => rfl | ⟨1, _⟩ => rfl,
        show ridx_main_v3 i k = ix2 k (i 1) from funext fun a => by match a with | ⟨0, _⟩ => rfl | ⟨1, _⟩ => rfl]
      rfl
  have s3 : ∑ k : Fin 8192, x3 (lidx_main_v6 i k) * (val_main_v5 (F := Ideal) x0 x6) (ridx_main_v6 i k)
      = fullSum x3 (val_main_v5 (F := Ideal) x0 x6) (i 0) (i 1) :=
    Finset.sum_congr rfl fun k _ => by
      rw [show lidx_main_v6 i k = ix2 (i 0) k from funext fun a => by match a with | ⟨0, _⟩ => rfl | ⟨1, _⟩ => rfl,
        show ridx_main_v6 i k = ix2 k (i 1) from funext fun a => by match a with | ⟨0, _⟩ => rfl | ⟨1, _⟩ => rfl]
      rfl
  rw [s1, s2, s3]
  rfl

set_option maxHeartbeats 2000000 in
/-- The reference's result is the tail of its convolution. -/
theorem result_ref (x0 : (⟨S8192x64, .f32⟩ : BufTy).Contents (Elt Ideal)) (x1 x2 x3 : (⟨S8192x8192, .f32⟩ : BufTy).Contents (Elt Ideal)) (x4 x5 x6 : (⟨S64x64, .f32⟩ : BufTy).Contents (Elt Ideal)) (x7 x8 x9 : (⟨S64, .f32⟩ : BufTy).Contents (Elt Ideal)) :
    val_main_v36 (F := Ideal) x0 x1 x2 x3 x4 x5 x6 x7 x8 x9
      = tail (F := Ideal) (val_main_v7 (F := Ideal) x0 x1 x2 x3 x4 x5 x6) x7 x8 x9 := rfl

end Cert.ReferenceIdeal.RefValue

end
-- ==== Proof.lean ====
/-
  A graph-convolution layer, `out = batchnorm(relu(L0·X·W0 + L1·X·W1 + L2·X·W2 + bias))`, with `X` 8192×64, each `L`
  8192×8192 and each `W` 64×64, computed two ways.

  The kernel's program forms `Yₙ = X·Wₙ` on the host, then runs a 16×4 grid over (row block of 512, column block of
  2048): each point multiplies its blocks of L0, L1, L2 with the matching blocks of Y0, Y1, Y2 (operands rounded to
  bf16, which over the extended reals changes nothing) and adds the three products to a 512×64 accumulator that is
  zeroed in the first column and written to the output in the last. The reference adds the three whole products.
  Entry by entry both are sums of the same products `Lₙ(r, k) · Yₙ(k, q)`: the kernel's in the order (column block,
  n, position in the block) starting from zero, the reference's in the order (n, position). Addition of extended
  reals is commutative and associative and zero is neutral, so the two convolutions are equal; no finiteness of an
  entry is used, and the precondition is never opened. Both programs then apply the same operations with the same
  literals — bias, `max(·, 0)`, and per column the mean, the variance, `rsqrt(var + ε)`, gamma and beta — so their
  results are one function of equal convolutions.

  The three frames: the kernel's two are the generated frame runs; the reference has no kernel, and its frame is
  its run with the result dropped. The idealization rewrote nothing, so `preserves` is trivial.
-/
import proofs.«101584_j17918603559109_1_alg».proof.Defs
import proofs.«101584_j17918603559109_1_alg».proof.Proof.Gen.Kernel
import proofs.«101584_j17918603559109_1_alg».proof.Proof.Gen.Kernel.Skeleton
import proofs.«101584_j17918603559109_1_alg».proof.Proof.Gen.Kernel.Launch
import proofs.«101584_j17918603559109_1_alg».proof.Proof.Gen.Kernel.Points
import proofs.«101584_j17918603559109_1_alg».proof.Proof.Gen.Kernel.Frame
import proofs.«101584_j17918603559109_1_alg».proof.Proof.Gen.KernelIdeal
import proofs.«101584_j17918603559109_1_alg».proof.Proof.Gen.KernelIdeal.Skeleton
import proofs.«101584_j17918603559109_1_alg».proof.Proof.Gen.KernelIdeal.Launch
import proofs.«101584_j17918603559109_1_alg».proof.Proof.Gen.KernelIdeal.Points
import proofs.«101584_j17918603559109_1_alg».proof.Proof.Gen.KernelIdeal.Frame
import proofs.«101584_j17918603559109_1_alg».proof.Proof.Gen.ReferenceIdeal
import proofs.«101584_j17918603559109_1_alg».proof.Proof.Gen.ReferenceIdeal.Run
import proofs.«101584_j17918603559109_1_alg».proof.Proof.Gen.ReferenceIdeal.Read
import proofs.«101584_j17918603559109_1_alg».proof.Proof.Gen.Pre_finite_inputs
import proofs.«101584_j17918603559109_1_alg».proof.Proof.KernelRun
import proofs.«101584_j17918603559109_1_alg».proof.Proof.RefConv
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The host's `X·W` is one term in both programs. -/
theorem xw_ref (x : (⟨Cert.ReferenceIdeal.S8192x64, .f32⟩ : BufTy).Contents (Elt Ideal))
    (w : (⟨Cert.ReferenceIdeal.S64x64, .f32⟩ : BufTy).Contents (Elt Ideal)) :
    Cert.ReferenceIdeal.Read.val_main_v0 (F := Ideal) x w = Cert.KernelIdeal.Conv.xw x w := rfl

/-- Both programs end with the tail of the convolution of arguments that agree. -/
theorem algebraic : Cert.algebraic_KernelIdeal_ReferenceIdeal := by
  intro m ρ m' ρ' _ hagree
  refine ⟨fun c => Cert.KernelIdeal.Conv.result m c, Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v36_eq, Cert.ReferenceIdeal.RefValue.result_ref,
    Cert.ReferenceIdeal.RefValue.conv_ref, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
